-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x1024 : Shape := ⟨3, ![64, 1024, 1024]⟩
abbrev S_ : Shape := ⟨0, ![]⟩

class Facts : Prop where
  bcast_S_S64x1024x1024 : S_.BroadcastsInDim S64x1024x1024 (![] : Fin 0 → Fin S64x1024x1024.rank)
  reducesTo_S64x1024x1024_S_d0_1_2 : S64x1024x1024.ReducesTo [0, 1, 2] S_
  h_S_ : 0 < S_.numel

variable [Facts]

def fn {F : FTy → Type} [FloatOps F] (main_arg0 : FVec F S64x1024x1024 .f32) : IVec S_ 1 :=
  let main_v0 : FVec F S64x1024x1024 .f32 := Host.absf main_arg0
  let main_cst : FVec F S_ .f32 := constant S_ .f32 0x7F800000#32
  let main_v1 : FVec F S64x1024x1024 .f32 := broadcastInDim S64x1024x1024 ![] bcast_S_S64x1024x1024 main_cst
  let main_v2 : IVec S64x1024x1024 1 := cmpf .olt main_v0 main_v1
  let main_c : IVec S_ 1 := constantI S_ 1 1#1
  let main_v3 : IVec S_ 1 := (fun x v => Host.reduce IntOp.andi x v reducesTo_S64x1024x1024_S_d0_1_2 h_S_) main_v2 main_c
  main_v3
-- ==== Kernel.lean ====
abbrev S64x1024x1024 : Shape := ⟨3, ![64, 1024, 1024]⟩
abbrev S1x1024x1024 : Shape := ⟨3, ![1, 1024, 1024]⟩
abbrev S1024x1024 : Shape := ⟨2, ![1024, 1024]⟩
abbrev S1x1024 : Shape := ⟨2, ![1, 1024]⟩
abbrev S1023x1024 : Shape := ⟨2, ![1023, 1024]⟩
abbrev S1024x1 : Shape := ⟨2, ![1024, 1]⟩
abbrev S1024x1023 : Shape := ⟨2, ![1024, 1023]⟩

abbrev nBuf : Space → Nat
  | .hbm => 2
  | .vmem => 4
  | .smem => 0
  | _ => 0

abbrev bufTy : (tb : Table) → Fin (tcTables nBuf tb) → BufTy
  | .hbm, ⟨0, _⟩ => ⟨S64x1024x1024, .f32⟩
  | .hbm, ⟨1, _⟩ => ⟨S64x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | _, _ => ⟨S64x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  slices_S1024x1024_o0_0_S1023x1024 : S1024x1024.Slices ![0, 0] S1023x1024
  concatenates_S1x1024_S1023x1024_S1024x1024_d0 : Shape.Concatenates [S1x1024, S1023x1024] S1024x1024 0
  slices_S1024x1024_o0_0_S1024x1023 : S1024x1024.Slices ![0, 0] S1024x1023
  concatenates_S1024x1_S1024x1023_S1024x1024_d1 : Shape.Concatenates [S1024x1, S1024x1023] S1024x1024 1
  slices_S1024x1024_o0_1_S1024x1023 : S1024x1024.Slices ![0, 1] S1024x1023
  concatenates_S1024x1023_S1024x1_S1024x1024_d1 : Shape.Concatenates [S1024x1023, S1024x1] S1024x1024 1
  slices_S1024x1024_o1_0_S1023x1024 : S1024x1024.Slices ![1, 0] S1023x1024
  concatenates_S1023x1024_S1x1024_S1024x1024_d0 : Shape.Concatenates [S1023x1024, S1x1024] S1024x1024 0
  shapeCasts_S1024x1024_S1x1024x1024 : S1024x1024.ShapeCasts S1x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S64x1024x1024.size a
  hwx0_0 : ∀ i : grid0.Coords, EltTy.bits .f32 = 32 ∨ (Rect.block (s := S64x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S64x1024x1024.size a
  hwx0_1 : ∀ i : grid0.Coords, EltTy.bits .f32 = 32 ∨ (Rect.block (s := S64x1024x1024) S1x1024x1024.size (cc0_transform_1 i) (hinb0_1 i)).WholeWords (EltTy.packing .f32)

variable [Facts₀]

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x1024x1024 : Shape := ⟨3, ![64, 1024, 1024]⟩
abbrev S_ : Shape := ⟨0, ![]⟩
abbrev S64x1026x1026 : Shape := ⟨3, ![64, 1026, 1026]⟩

abbrev nBuf : Space → Nat
  | .hbm => 22
  | .vmem => 0
  | .smem => 0
  | _ => 0

abbrev bufTy : (tb : Table) → Fin (tcTables nBuf tb) → BufTy
  | .hbm, ⟨0, _⟩ => ⟨S64x1024x1024, .f32⟩
  | .hbm, ⟨1, _⟩ => ⟨S_, .i32⟩
  | .hbm, ⟨2, _⟩ => ⟨S_, .f32⟩
  | .hbm, ⟨3, _⟩ => ⟨S64x1026x1026, .f32⟩
  | .hbm, ⟨4, _⟩ => ⟨S_, .f32⟩
  | .hbm, ⟨5, _⟩ => ⟨S64x1024x1024, .f32⟩
  | .hbm, ⟨6, _⟩ => ⟨S64x1024x1024, .f32⟩
  | .hbm, ⟨7, _⟩ => ⟨S64x1024x1024, .f32⟩
  | .hbm, ⟨8, _⟩ => ⟨S64x1024x1024, .f32⟩
  | .hbm, ⟨9, _⟩ => ⟨S64x1024x1024, .f32⟩
  | .hbm, ⟨10, _⟩ => ⟨S64x1024x1024, .f32⟩
  | .hbm, ⟨11, _⟩ => ⟨S64x1024x1024, .f32⟩
  | .hbm, ⟨12, _⟩ => ⟨S64x1024x1024, .f32⟩
  | .hbm, ⟨13, _⟩ => ⟨S64x1024x1024, .f32⟩
  | .hbm, ⟨14, _⟩ => ⟨S64x1024x1024, .f32⟩
  | .hbm, ⟨15, _⟩ => ⟨S64x1024x1024, .f32⟩
  | .hbm, ⟨16, _⟩ => ⟨S64x1024x1024, .f32⟩
  | .hbm, ⟨17, _⟩ => ⟨S64x1024x1024, .f32⟩
  | .hbm, ⟨18, _⟩ => ⟨S64x1024x1024, .f32⟩
  | .hbm, ⟨19, _⟩ => ⟨S64x1024x1024, .f32⟩
  | .hbm, ⟨20, _⟩ => ⟨S64x1024x1024, .f32⟩
  | .hbm, ⟨21, _⟩ => ⟨S64x1024x1024, .f32⟩
  | _, _ => ⟨S64x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]

class Facts₀ : Prop where
  pads_S64x1024x1024_S64x1026x1026_000_110_110 : S64x1024x1024.Pads (![0, 1, 1] : Fin 3 → Nat) ![0, 1, 1] ![0, 0, 0] S64x1026x1026
  h_S_ : 0 < S_.numel
  bcast_S_S64x1024x1024 : S_.BroadcastsInDim S64x1024x1024 (![] : Fin 0 → Fin S64x1024x1024.rank)
  slices_S64x1026x1026_S64x1024x1024_0_0_0 : S64x1026x1026.Slices ![0, 0, 0] S64x1024x1024
  slices_S64x1026x1026_S64x1024x1024_0_0_1 : S64x1026x1026.Slices ![0, 0, 1] S64x1024x1024
  slices_S64x1026x1026_S64x1024x1024_0_0_2 : S64x1026x1026.Slices ![0, 0, 2] S64x1024x1024
  slices_S64x1026x1026_S64x1024x1024_0_1_0 : S64x1026x1026.Slices ![0, 1, 0] S64x1024x1024
  slices_S64x1026x1026_S64x1024x1024_0_1_2 : S64x1026x1026.Slices ![0, 1, 2] S64x1024x1024
  slices_S64x1026x1026_S64x1024x1024_0_2_0 : S64x1026x1026.Slices ![0, 2, 0] S64x1024x1024
  slices_S64x1026x1026_S64x1024x1024_0_2_1 : S64x1026x1026.Slices ![0, 2, 1] S64x1024x1024
  slices_S64x1026x1026_S64x1024x1024_0_2_2 : S64x1026x1026.Slices ![0, 2, 2] S64x1024x1024

variable [Facts₀]

class Facts : Prop extends Facts₀ where

variable [Facts]
-- ==== Proof.Shift.lean ====
/-
  A 1024 × 1024 plane moved by one step along an axis, the vacated row or column filled with a value `z`,
  read at an index. Each move is a two-piece concatenation of a constant strip and a slice one short of the
  plane: down (a row of `z` on top, rows 0 … 1022 below it), up (rows 1 … 1023, a row of `z` below),
  right (a column of `z` first, columns 0 … 1022 after it) and left (columns 1 … 1023, a column of `z` last).
  At `(i, j)` the moved plane holds the neighbour's entry, or `z` where the neighbour is off the plane.
-/
import Idealize.ShloMosaic.Lib.Pipeline.Value
import Idealize.ShloMosaic.Lib.ValueIdx

namespace Cert.PoolHole

open Idealize.ShloMosaic Idealize.ShloMosaic.ValueIdx

/-- The plane, a strip of one row, a strip of one column, the plane less a row, the plane less a column. -/
abbrev Img : Shape := ⟨2, ![1024, 1024]⟩
abbrev RowS : Shape := ⟨2, ![1, 1024]⟩
abbrev ColS : Shape := ⟨2, ![1024, 1]⟩
abbrev ImgR : Shape := ⟨2, ![1023, 1024]⟩
abbrev ImgC : Shape := ⟨2, ![1024, 1023]⟩

variable {α : Type}

/-- One row DOWN: row 0 is `z`, row `i > 0` is the plane's row `i - 1`. -/
theorem rowDown_apply (x : Img.Idx → α) (z : α) (hs : Img.Slices ![0, 0] ImgR)
    (hc : Shape.Concatenates [RowS, ImgR] Img 0) (i j : Fin 1024) :
    concatenate Img 0 [⟨RowS, broadcast RowS z⟩, ⟨ImgR, extractStridedSlice ImgR ![0, 0] x hs⟩] hc (ix2 i j)
      = if i.val = 0 then z else x (ix2 ⟨i.val - 1, by have := i.isLt; omega⟩ j) := by
  have hi := i.isLt
  split
  · rename_i h
    exact concatenate_pair_apply_left (t := Img) (s₁ := RowS) (s₂ := ImgR) (0 : Fin 2) (broadcast RowS z) (extractStridedSlice ImgR ![0, 0] x hs) hc (ix2 i j) rfl (ix2 ⟨0, by decide⟩ j)
      (fun b => match b with | ⟨0, _⟩ => h.symm | ⟨1, _⟩ => rfl)
  · rename_i h
    refine (concatenate_pair_apply_right (t := Img) (s₁ := RowS) (s₂ := ImgR) (0 : Fin 2) (broadcast RowS z) (extractStridedSlice ImgR ![0, 0] x hs) hc (ix2 i j) rfl rfl (ix2 ⟨i.val - 1, by omega⟩ j)
      (fun b hb => match b, hb with | ⟨0, _⟩, hb => absurd rfl hb | ⟨1, _⟩, _ => rfl)
      (by show i.val - 1 + 1 = i.val; omega)).trans ?_
    exact extractStridedSlice_apply _ x hs _ _ (fun a => match a with
      | ⟨0, _⟩ => by show i.val - 1 = 0 + (i.val - 1); omega
      | ⟨1, _⟩ => by show j.val = 0 + j.val; omega)

/-- One row UP: row 1023 is `z`, row `i < 1023` is the plane's row `i + 1`. -/
theorem rowUp_apply (x : Img.Idx → α) (z : α) (hs : Img.Slices ![1, 0] ImgR)
    (hc : Shape.Concatenates [ImgR, RowS] Img 0) (i j : Fin 1024) :
    concatenate Img 0 [⟨ImgR, extractStridedSlice ImgR ![1, 0] x hs⟩, ⟨RowS, broadcast RowS z⟩] hc (ix2 i j)
      = if h : i.val + 1 < 1024 then x (ix2 ⟨i.val + 1, h⟩ j) else z := by
  have hi := i.isLt
  split
  · rename_i h
    refine (concatenate_pair_apply_left (t := Img) (s₁ := ImgR) (s₂ := RowS) (0 : Fin 2) (extractStridedSlice ImgR ![1, 0] x hs) (broadcast RowS z) hc (ix2 i j) rfl (ix2 ⟨i.val, by omega⟩ j)
      (fun b => match b with | ⟨0, _⟩ => rfl | ⟨1, _⟩ => rfl)).trans ?_
    exact extractStridedSlice_apply _ x hs _ _ (fun a => match a with
      | ⟨0, _⟩ => by show i.val + 1 = 1 + i.val; omega
      | ⟨1, _⟩ => by show j.val = 0 + j.val; omega)
  · rename_i h
    exact concatenate_pair_apply_right (t := Img) (s₁ := ImgR) (s₂ := RowS) (0 : Fin 2) (extractStridedSlice ImgR ![1, 0] x hs) (broadcast RowS z) hc (ix2 i j) rfl rfl (ix2 ⟨0, by decide⟩ j)
      (fun b hb => match b, hb with | ⟨0, _⟩, hb => absurd rfl hb | ⟨1, _⟩, _ => rfl)
      (by show 0 + 1023 = i.val; omega)

/-- One column RIGHT: column 0 is `z`, column `j > 0` is the plane's column `j - 1`. -/
theorem colRight_apply (x : Img.Idx → α) (z : α) (hs : Img.Slices ![0, 0] ImgC)
    (hc : Shape.Concatenates [ColS, ImgC] Img 1) (i j : Fin 1024) :
    concatenate Img 1 [⟨ColS, broadcast ColS z⟩, ⟨ImgC, extractStridedSlice ImgC ![0, 0] x hs⟩] hc (ix2 i j)
      = if j.val = 0 then z else x (ix2 i ⟨j.val - 1, by have := j.isLt; omega⟩) := by
  have hj := j.isLt
  split
  · rename_i h
    exact concatenate_pair_apply_left (t := Img) (s₁ := ColS) (s₂ := ImgC) (1 : Fin 2) (broadcast ColS z) (extractStridedSlice ImgC ![0, 0] x hs) hc (ix2 i j) rfl (ix2 i ⟨0, by decide⟩)
      (fun b => match b with | ⟨0, _⟩ => rfl | ⟨1, _⟩ => h.symm)
  · rename_i h
    refine (concatenate_pair_apply_right (t := Img) (s₁ := ColS) (s₂ := ImgC) (1 : Fin 2) (broadcast ColS z) (extractStridedSlice ImgC ![0, 0] x hs) hc (ix2 i j) rfl rfl (ix2 i ⟨j.val - 1, by omega⟩)
      (fun b hb => match b, hb with | ⟨0, _⟩, _ => rfl | ⟨1, _⟩, hb => absurd rfl hb)
      (by show j.val - 1 + 1 = j.val; omega)).trans ?_
    exact extractStridedSlice_apply _ x hs _ _ (fun a => match a with
      | ⟨0, _⟩ => by show i.val = 0 + i.val; omega
      | ⟨1, _⟩ => by show j.val - 1 = 0 + (j.val - 1); omega)

/-- One column LEFT: column 1023 is `z`, column `j < 1023` is the plane's column `j + 1`. -/
theorem colLeft_apply (x : Img.Idx → α) (z : α) (hs : Img.Slices ![0, 1] ImgC)
    (hc : Shape.Concatenates [ImgC, ColS] Img 1) (i j : Fin 1024) :
    concatenate Img 1 [⟨ImgC, extractStridedSlice ImgC ![0, 1] x hs⟩, ⟨ColS, broadcast ColS z⟩] hc (ix2 i j)
      = if h : j.val + 1 < 1024 then x (ix2 i ⟨j.val + 1, h⟩) else z := by
  have hj := j.isLt
  split
  · rename_i h
    refine (concatenate_pair_apply_left (t := Img) (s₁ := ImgC) (s₂ := ColS) (1 : Fin 2) (extractStridedSlice ImgC ![0, 1] x hs) (broadcast ColS z) hc (ix2 i j) rfl (ix2 i ⟨j.val, by omega⟩)
      (fun b => match b with | ⟨0, _⟩ => rfl | ⟨1, _⟩ => rfl)).trans ?_
    exact extractStridedSlice_apply _ x hs _ _ (fun a => match a with
      | ⟨0, _⟩ => by show i.val = 0 + i.val; omega
      | ⟨1, _⟩ => by show j.val + 1 = 1 + j.val; omega)
  · rename_i h
    exact concatenate_pair_apply_right (t := Img) (s₁ := ImgC) (s₂ := ColS) (1 : Fin 2) (extractStridedSlice ImgC ![0, 1] x hs) (broadcast ColS z) hc (ix2 i j) rfl rfl (ix2 i ⟨0, by decide⟩)
      (fun b hb => match b, hb with | ⟨0, _⟩, _ => rfl | ⟨1, _⟩, hb => absurd rfl hb)
      (by show 0 + 1023 = j.val; omega)

end Cert.PoolHole
-- ==== Proof.Taps.lean ====
/-
  The neighbour of a plane's entry. `tap x z di dj i j` is the plane's entry at `(i + di - 1, j + dj - 1)` when that
  position is on the 1024 × 1024 plane and `z` when it is not: with `di, dj ∈ {0, 1, 2}` these are the nine positions
  of the 3 × 3 window centred at `(i, j)`, the plane continued by `z` beyond its border.
  Two readings of it. A plane moved one step down or up and then one step right or left holds, at `(i, j)`, the
  tap in the opposite direction; and an array padded by one entry of `v` on each side of its last two axes holds,
  at `(b, i + di, j + dj)`, the tap `(di, dj)` of plane `b`.
-/
import proofs.«166216_j43971875176514_1_alg».proof.Proof.Shift
import Idealize.ShloMosaic.Lib.KernelVsHost

namespace Cert.PoolHole

open Idealize.ShloMosaic Idealize.ShloMosaic.ValueIdx

variable {α : Type}

/-- The entry at `(i + di - 1, j + dj - 1)`, or `z` off the plane. -/
def tap (x : Img.Idx → α) (z : α) (di dj : Nat) (i j : Fin 1024) : α :=
  if h : 1 ≤ i.val + di ∧ i.val + di ≤ 1024 ∧ 1 ≤ j.val + dj ∧ j.val + dj ≤ 1024 then
    x (ix2 ⟨i.val + di - 1, by omega⟩ ⟨j.val + dj - 1, by omega⟩) else z

theorem tap_of_inside (x : Img.Idx → α) (z : α) (di dj : Nat) (i j p q : Fin 1024)
    (hp : p.val + 1 = i.val + di) (hq : q.val + 1 = j.val + dj) : tap x z di dj i j = x (ix2 p q) := by
  have hpl := p.isLt
  have hql := q.isLt
  unfold tap
  rw [dif_pos ⟨by omega, by omega, by omega, by omega⟩]
  have e1 : (⟨i.val + di - 1, by omega⟩ : Fin 1024) = p := Fin.ext (by show i.val + di - 1 = p.val; omega)
  have e2 : (⟨j.val + dj - 1, by omega⟩ : Fin 1024) = q := Fin.ext (by show j.val + dj - 1 = q.val; omega)
  rw [e1, e2]

theorem tap_of_outside (x : Img.Idx → α) (z : α) (di dj : Nat) (i j : Fin 1024)
    (h : i.val + di = 0 ∨ 1024 < i.val + di ∨ j.val + dj = 0 ∨ 1024 < j.val + dj) : tap x z di dj i j = z := by
  unfold tap
  rw [dif_neg (by omega)]

/-! ## The eight moved planes -/

section Moved
variable (x : Img.Idx → α) (z : α)
  (hs00r : Img.Slices ![0, 0] ImgR) (hs10r : Img.Slices ![1, 0] ImgR)
  (hs00c : Img.Slices ![0, 0] ImgC) (hs01c : Img.Slices ![0, 1] ImgC)
  (hcd : Shape.Concatenates [RowS, ImgR] Img 0) (hcu : Shape.Concatenates [ImgR, RowS] Img 0)
  (hcr : Shape.Concatenates [ColS, ImgC] Img 1) (hcl : Shape.Concatenates [ImgC, ColS] Img 1)
  (i j : Fin 1024)

/-- Down: the entry above. -/
theorem down_tap :
    concatenate Img 0 [⟨RowS, broadcast RowS z⟩, ⟨ImgR, extractStridedSlice ImgR ![0, 0] x hs00r⟩] hcd (ix2 i j)
      = tap x z 0 1 i j := by
  have hi := i.isLt
  rw [rowDown_apply]
  by_cases h : i.val = 0
  · rw [if_pos h]; exact (tap_of_outside x z 0 1 i j (by omega)).symm
  · rw [if_neg h]; exact (tap_of_inside x z 0 1 i j _ j (by show i.val - 1 + 1 = i.val + 0; omega) rfl).symm

/-- Up: the entry below. -/
theorem up_tap :
    concatenate Img 0 [⟨ImgR, extractStridedSlice ImgR ![1, 0] x hs10r⟩, ⟨RowS, broadcast RowS z⟩] hcu (ix2 i j)
      = tap x z 2 1 i j := by
  rw [rowUp_apply]
  by_cases h : i.val + 1 < 1024
  · rw [dif_pos h]; exact (tap_of_inside x z 2 1 i j _ j (by show i.val + 1 + 1 = i.val + 2; omega) rfl).symm
  · rw [dif_neg h]; exact (tap_of_outside x z 2 1 i j (by omega)).symm

/-- Right: the entry to the left. -/
theorem right_tap :
    concatenate Img 1 [⟨ColS, broadcast ColS z⟩, ⟨ImgC, extractStridedSlice ImgC ![0, 0] x hs00c⟩] hcr (ix2 i j)
      = tap x z 1 0 i j := by
  have hj := j.isLt
  rw [colRight_apply]
  by_cases h : j.val = 0
  · rw [if_pos h]; exact (tap_of_outside x z 1 0 i j (by omega)).symm
  · rw [if_neg h]; exact (tap_of_inside x z 1 0 i j i _ rfl (by show j.val - 1 + 1 = j.val + 0; omega)).symm

/-- Left: the entry to the right. -/
theorem left_tap :
    concatenate Img 1 [⟨ImgC, extractStridedSlice ImgC ![0, 1] x hs01c⟩, ⟨ColS, broadcast ColS z⟩] hcl (ix2 i j)
      = tap x z 1 2 i j := by
  rw [colLeft_apply]
  by_cases h : j.val + 1 < 1024
  · rw [dif_pos h]; exact (tap_of_inside x z 1 2 i j i _ rfl (by show j.val + 1 + 1 = j.val + 2; omega)).symm
  · rw [dif_neg h]; exact (tap_of_outside x z 1 2 i j (by omega)).symm

/-- A tap of a plane already moved along the rows, taken along the columns: the diagonal tap. A tap with
    `di = 1` of a plane that is itself a tap `(di', 1)` is the tap `(di', dj)`. -/
theorem tap_tap (di dj : Nat) :
    tap (fun p => tap x z di 1 (p 0) (p 1)) z 1 dj i j = tap x z di dj i j := by
  have hi := i.isLt
  have hj := j.isLt
  by_cases hc : 1 ≤ j.val + dj ∧ j.val + dj ≤ 1024
  · rw [tap_of_inside _ z 1 dj i j i ⟨j.val + dj - 1, by omega⟩ rfl (by show j.val + dj - 1 + 1 = j.val + dj; omega)]
    show tap x z di 1 i ⟨j.val + dj - 1, _⟩ = _
    by_cases hr : 1 ≤ i.val + di ∧ i.val + di ≤ 1024
    · rw [tap_of_inside x z di 1 i _ ⟨i.val + di - 1, by omega⟩ ⟨j.val + dj - 1, by omega⟩
          (by show i.val + di - 1 + 1 = i.val + di; omega) rfl,
        tap_of_inside x z di dj i j ⟨i.val + di - 1, by omega⟩ ⟨j.val + dj - 1, by omega⟩
          (by show i.val + di - 1 + 1 = i.val + di; omega) (by show j.val + dj - 1 + 1 = j.val + dj; omega)]
    · rw [tap_of_outside x z di 1 i _ (by omega), tap_of_outside x z di dj i j (by omega)]
  · rw [tap_of_outside _ z 1 dj i j (by omega), tap_of_outside x z di dj i j (by omega)]

/-- The plane moved down, as a function of the index. -/
theorem down_tap_fun :
    concatenate Img 0 [⟨RowS, broadcast RowS z⟩, ⟨ImgR, extractStridedSlice ImgR ![0, 0] x hs00r⟩] hcd
      = fun p => tap x z 0 1 (p 0) (p 1) := by
  funext p
  obtain ⟨a, b, rfl⟩ : ∃ (a b : Fin 1024), p = ix2 a b := ⟨p 0, p 1, eq_ix2 p⟩
  exact down_tap x z hs00r hcd a b

/-- The plane moved up, as a function of the index. -/
theorem up_tap_fun :
    concatenate Img 0 [⟨ImgR, extractStridedSlice ImgR ![1, 0] x hs10r⟩, ⟨RowS, broadcast RowS z⟩] hcu
      = fun p => tap x z 2 1 (p 0) (p 1) := by
  funext p
  obtain ⟨a, b, rfl⟩ : ∃ (a b : Fin 1024), p = ix2 a b := ⟨p 0, p 1, eq_ix2 p⟩
  exact up_tap x z hs10r hcu a b

/-- Down then right: the entry above and to the left. -/
theorem downRight_tap :
    concatenate Img 1 [⟨ColS, broadcast ColS z⟩, ⟨ImgC, extractStridedSlice ImgC ![0, 0]
        (concatenate Img 0 [⟨RowS, broadcast RowS z⟩, ⟨ImgR, extractStridedSlice ImgR ![0, 0] x hs00r⟩] hcd) hs00c⟩] hcr (ix2 i j)
      = tap x z 0 0 i j := by
  rw [down_tap_fun x z hs00r hcd]
  exact (right_tap _ z hs00c hcr i j).trans (tap_tap x z i j 0 0)

/-- Down then left: the entry above and to the right. -/
theorem downLeft_tap :
    concatenate Img 1 [⟨ImgC, extractStridedSlice ImgC ![0, 1]
        (concatenate Img 0 [⟨RowS, broadcast RowS z⟩, ⟨ImgR, extractStridedSlice ImgR ![0, 0] x hs00r⟩] hcd) hs01c⟩, ⟨ColS, broadcast ColS z⟩] hcl (ix2 i j)
      = tap x z 0 2 i j := by
  rw [down_tap_fun x z hs00r hcd]
  exact (left_tap _ z hs01c hcl i j).trans (tap_tap x z i j 0 2)

/-- Up then right: the entry below and to the left. -/
theorem upRight_tap :
    concatenate Img 1 [⟨ColS, broadcast ColS z⟩, ⟨ImgC, extractStridedSlice ImgC ![0, 0]
        (concatenate Img 0 [⟨ImgR, extractStridedSlice ImgR ![1, 0] x hs10r⟩, ⟨RowS, broadcast RowS z⟩] hcu) hs00c⟩] hcr (ix2 i j)
      = tap x z 2 0 i j := by
  rw [up_tap_fun x z hs10r hcu]
  exact (right_tap _ z hs00c hcr i j).trans (tap_tap x z i j 2 0)

/-- Up then left: the entry below and to the right. -/
theorem upLeft_tap :
    concatenate Img 1 [⟨ImgC, extractStridedSlice ImgC ![0, 1]
        (concatenate Img 0 [⟨ImgR, extractStridedSlice ImgR ![1, 0] x hs10r⟩, ⟨RowS, broadcast RowS z⟩] hcu) hs01c⟩, ⟨ColS, broadcast ColS z⟩] hcl (ix2 i j)
      = tap x z 2 2 i j := by
  rw [up_tap_fun x z hs10r hcu]
  exact (left_tap _ z hs01c hcl i j).trans (tap_tap x z i j 2 2)

end Moved

/-- The eight neighbours of `(i, j)` folded onto `z` by `mx`, row by row of the window, the centre left out. -/
def pool2 (mx : α → α → α) (z : α) (x : Img.Idx → α) (i j : Fin 1024) : α :=
  mx (mx (mx (mx (mx (mx (mx (mx z (tap x z 0 0 i j)) (tap x z 0 1 i j)) (tap x z 0 2 i j))
    (tap x z 1 0 i j)) (tap x z 1 2 i j)) (tap x z 2 0 i j)) (tap x z 2 1 i j)) (tap x z 2 2 i j)

/-! ## The padded array -/

abbrev Arr : Shape := ⟨3, ![64, 1024, 1024]⟩
abbrev ArrP : Shape := ⟨3, ![64, 1026, 1026]⟩

/-- The array padded by one `v` on each side of its last two axes, read at `(b, i + di, j + dj)`: the tap
    `(di, dj)` of plane `b`, the plane continued by `v`. -/
theorem pad_tap (X : Arr.Idx → α) {u : Shape} (v : u.Idx → α)
    (hp : Arr.Pads ![0, 1, 1] ![0, 1, 1] ![0, 0, 0] ArrP) (hu : 0 < u.numel)
    (k' : ArrP.Idx) (b : Fin 64) (i j : Fin 1024) (di dj : Nat)
    (h0 : (k' 0).val = b.val) (h1 : (k' 1).val = i.val + di) (h2 : (k' 2).val = j.val + dj) :
    pad ArrP ![0, 1, 1] ![0, 1, 1] ![0, 0, 0] X v hp hu k'
      = tap (fun p => X (ix3 b (p 0) (p 1))) (v (Shape.Idx.first hu)) di dj i j := by
  have hi := i.isLt
  have hj := j.isLt
  by_cases hr : 1 ≤ i.val + di ∧ i.val + di ≤ 1024
  · by_cases hc : 1 ≤ j.val + dj ∧ j.val + dj ≤ 1024
    · rw [tap_of_inside _ _ di dj i j ⟨i.val + di - 1, by omega⟩ ⟨j.val + dj - 1, by omega⟩
        (by show i.val + di - 1 + 1 = i.val + di; omega) (by show j.val + dj - 1 + 1 = j.val + dj; omega)]
      exact pad_apply_of_inside _ _ _ X v hp hu k' (ix3 b ⟨i.val + di - 1, by omega⟩ ⟨j.val + dj - 1, by omega⟩)
        (fun a => match a with
          | ⟨0, _⟩ => by show (k' 0).val = 0 + b.val * (0 + 1); omega
          | ⟨1, _⟩ => by show (k' 1).val = 1 + (i.val + di - 1) * (0 + 1); omega
          | ⟨2, _⟩ => by show (k' 2).val = 1 + (j.val + dj - 1) * (0 + 1); omega)
    · rw [tap_of_outside _ _ di dj i j (by omega)]
      exact pad_apply_of_not_inside _ _ _ X v hp hu k' (2 : Fin 3) (fun hh => by
        have a1 : 1 ≤ (k' 2).val := hh.1
        have a3 : ((k' 2).val - 1) / 1 < 1024 := hh.2.2
        omega)
  · rw [tap_of_outside _ _ di dj i j (by omega)]
    exact pad_apply_of_not_inside _ _ _ X v hp hu k' (1 : Fin 3) (fun hh => by
      have a1 : 1 ≤ (k' 1).val := hh.1
      have a3 : ((k' 1).val - 1) / 1 < 1024 := hh.2.2
      omega)

/-- THE RESULT as one function of the array: at `(b, i, j)`, `z` and the eight neighbours of `(i, j)` in plane `b`
    folded by `mx`, each neighbour off the plane read as `z`. -/
def pool (mx : α → α → α) (z : α) (X : Arr.Idx → α) : Arr.Idx → α := fun k =>
  pool2 mx z (fun p => X (ix3 (k 0) (p 0) (p 1))) (k 1) (k 2)

/-- A plane that is plane `k 0` of the array, pooled at `(k 1, k 2)`, is the pooled array at `k`: the plane is given
    through a block `v0` whose entry `(0, p, q)` is the array's entry `(k 0, p, q)`, the position through a block
    index `y` with `k`'s last two coordinates. -/
theorem pool_block (mx : α → α → α) (z : α) (X : Arr.Idx → α) (v0 : (⟨3, ![1, 1024, 1024]⟩ : Shape).Idx → α)
    (y : (⟨3, ![1, 1024, 1024]⟩ : Shape).Idx) (k : Arr.Idx) (h1 : (k 1).val = (y 1).val) (h2 : (k 2).val = (y 2).val)
    (hv : ∀ p q : Fin 1024, v0 (ix3 0 p q) = X (ix3 (k 0) p q))
    (x : Img.Idx → α) (hx : ∀ p q : Fin 1024, x (ix2 p q) = v0 (ix3 0 p q)) :
    pool2 mx z x (y 1) (y 2) = pool mx z X k := by
  have ex : x = fun p => X (ix3 (k 0) (p 0) (p 1)) := funext fun r => by
    obtain ⟨a, b, rfl⟩ : ∃ (a b : Fin 1024), r = ix2 a b := ⟨r 0, r 1, eq_ix2 r⟩
    exact (hx a b).trans (hv a b)
  have e1 : y 1 = k 1 := Fin.ext h1.symm
  have e2 : y 2 = k 2 := Fin.ext h2.symm
  unfold pool
  rw [ex, e1, e2]

end Cert.PoolHole
-- ==== Proof.Payload.lean ====
/-
  What the kernel body stores, read at an index. The body loads its [1, 1024, 1024] block, drops the unit axis to get a
  plane, forms the eight planes moved one step towards each neighbour (zero entering at the border), folds them onto a
  plane of zeros with the pointwise maximum, and stores the result with the unit axis put back. So the stored block at
  `(0, p, q)` is the maximum of zero and the plane's eight neighbours of `(p, q)`, each read as zero off the plane.
-/
import proofs.«166216_j43971875176514_1_alg».proof.Proof.Gen.KernelIdeal.Skeleton
import proofs.«166216_j43971875176514_1_alg».proof.Proof.Taps

noncomputable section

namespace Cert.PoolHole

open Idealize.ShloMosaic Idealize.ShloMosaic.ValueIdx Cert.KernelIdeal Cert.KernelIdeal.Gen

variable {F : FTy → Type} [FloatOps F]

/-- The loaded block as a plane: entry `(p, q)` of the plane is entry `(0, p, q)` of the block. -/
theorem plane_apply (v0 : Vec F S1x1024x1024 .f32) (p q : Fin 1024) :
    k0_pay2 v0 (ix2 p q) = v0 (ix3 0 p q) := by
  unfold k0_pay2
  refine (shapeCast_dropUnit_apply ![1024, 1024] v0 _ (ix2 p q)).trans (congrArg v0 ?_)
  funext a
  match a with
  | ⟨0, _⟩ => rfl
  | ⟨1, _⟩ => rfl
  | ⟨2, _⟩ => rfl

/-- The stored block at `(a, p, q)`: zero and the eight neighbours of `(p, q)` under the maximum. -/
theorem payload_apply (v0 : Vec F S1x1024x1024 .f32) (a : Fin 1) (p q : Fin 1024) :
    k0_pay1 (k0_pay3 v0) (k0_pay4 v0) (ix3 a p q)
      = pool2 FloatOps.maximumf (Scalar.ofBits .f32 0x00000000#32) (k0_pay2 v0) p q := by
  unfold k0_pay1
  refine (shapeCast_addUnit_apply ![1024, 1024] _ _ (ix3 a p q)).trans ?_
  have e : (fun b : Fin 2 => (ix3 a p q : S1x1024x1024.Idx) b.succ) = ix2 p q :=
    funext fun b => match b with | ⟨0, _⟩ => rfl | ⟨1, _⟩ => rfl
  rw [e]
  unfold k0_pay3 k0_pay4 pool2
  dsimp only
  refine congrArg₂ FloatOps.maximumf (congrArg₂ FloatOps.maximumf (congrArg₂ FloatOps.maximumf (congrArg₂ FloatOps.maximumf
    (congrArg₂ FloatOps.maximumf (congrArg₂ FloatOps.maximumf (congrArg₂ FloatOps.maximumf (congrArg₂ FloatOps.maximumf rfl ?_) ?_) ?_) ?_) ?_) ?_) ?_) ?_
  · exact downRight_tap _ _ _ _ _ _ p q
  · exact down_tap _ _ _ _ p q
  · exact downLeft_tap _ _ _ _ _ _ p q
  · exact right_tap _ _ _ _ p q
  · exact left_tap _ _ _ _ p q
  · exact upRight_tap _ _ _ _ _ _ p q
  · exact up_tap _ _ _ _ p q
  · exact upLeft_tap _ _ _ _ _ _ p q

/-- The same at any index of the block. -/
theorem payload_at (v0 : Vec F S1x1024x1024 .f32) (y : S1x1024x1024.Idx) :
    k0_pay1 (k0_pay3 v0) (k0_pay4 v0) y
      = pool2 FloatOps.maximumf (Scalar.ofBits .f32 0x00000000#32) (k0_pay2 v0) (y 1) (y 2) := by
  exact (congrArg (k0_pay1 (k0_pay3 v0) (k0_pay4 v0)) (eq_ix3 y)).trans (payload_apply v0 (y 0) (y 1) (y 2))

end Cert.PoolHole

end
-- ==== Proof.KernelValue.lean ====
/-
  The kernel's result array. Grid point `t` of 64 stages plane `t` of the argument as its input block and writes
  back plane `t` of the result; its body turns the block into the pooled plane (`payload_apply`). The 64 written
  blocks tile the [64, 1024, 1024] result, so after the run the result array is `pool` of the argument array.
-/
import proofs.«166216_j43971875176514_1_alg».proof.Proof.Gen.KernelIdeal.Value
import proofs.«166216_j43971875176514_1_alg».proof.Proof.Payload

set_option maxRecDepth 16384

noncomputable section

namespace Cert.PoolHole.KernelSide

open Cert.KernelIdeal Cert.KernelIdeal.Gen Idealize.ShloMosaic Idealize.ShloMosaic.TcCoe Idealize.SL.Sem
open Idealize.ShloMosaic.Pipeline (Dat)
open Idealize.ShloMosaic.ValueIdx Cert.PoolHole

variable {F : FTy → Type} [FloatOps F]
variable (m : (ℓ : Loc nD τ sig) → Buf (Elt F) ℓ) (ρ : Dev nD → PrngReg)

theorem hz : (![0, 0, 0] : Fin 3 → Nat) = fun _ => 0 := funext fun a => by fin_cases a <;> rfl

/-- The result array as a function of the argument array. -/
abbrev G (X : S64x1024x1024.Idx → Elt F .f32) : S64x1024x1024.Idx → Elt F .f32 :=
  pool FloatOps.maximumf (Scalar.ofBits .f32 0x00000000#32) X

/-- Both windows' block index at point `t` is `(t, 0, 0)`. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- WHAT POINT `t` WRITES BACK is block `t` of `G` of the argument array. -/
theorem flushed_eq (c : Dev nD) (t : Fin cfg0.N) :
    (dats m 0 c).flushed 1 t = ((cfg0.win 1).blk t).view.read (Elt F) (G (V m c main_arg0)) := by
  rw [Value.flushed1]
  unfold out0_1
  rw [View.canon_unit_zero hz]
  simp only [View.ld_unit_zero (S := S1x1024x1024) hz]
  funext y
  obtain ⟨e0, e1, e2, e3, e4, e5⟩ := idx_facts t
  have hy0 : (y 0).val < 1 := (y 0).isLt
  show k0_pay1 (k0_pay3 (iblk m c 0 t)) (k0_pay4 (iblk m c 0 t)) y
    = G (V m c main_arg0) (((cfg0.win 1).blk t).view.emb y)
  refine (payload_at (iblk m c 0 t) y).trans ?_
  refine pool_block _ _ (V m c main_arg0) (iblk m c 0 t) y (((cfg0.win 1).blk t).view.emb y) ?_ ?_ ?_
    (k0_pay2 (iblk m c 0 t)) (fun p q => plane_apply _ p q)
  · show win0_1.index t (1 : Fin 3) * 1024 + 1 * (y 1).val = (y 1).val
    omega
  · show win0_1.index t (2 : Fin 3) * 1024 + 1 * (y 2).val = (y 2).val
    omega
  · intro p q
    unfold iblk
    rw [View.read_apply]
    show V m c main_arg0 _ = V m c main_arg0 _
    congr 1
    funext a
    apply Fin.ext
    match a with
    | ⟨0, _⟩ => show win0_0.index t (0 : Fin 3) * 1 + 1 * 0 = win0_1.index t (0 : Fin 3) * 1 + 1 * (y 0).val; omega
    | ⟨1, _⟩ => show win0_0.index t (1 : Fin 3) * 1024 + 1 * p.val = p.val; omega
    | ⟨2, _⟩ => show win0_0.index t (2 : Fin 3) * 1024 + 1 * q.val = q.val; omega

/-- An index of the array is in point `t`'s block iff each coordinate is in the block's range on its axis. -/
theorem mem_blk (t : Fin cfg0.N) (i : S64x1024x1024.Idx) :
    i ∈ ((cfg0.win 1).blk t).view.set ↔ ∀ a : Fin 3, win0_1.index t a * S1x1024x1024.size a ≤ (i a).val
      ∧ (i a).val < win0_1.index t a * S1x1024x1024.size a + S1x1024x1024.size a := by
  show i ∈ ((View.whole main_v0).slice (win0_1.rect t)).set ↔ _
  rw [View.set_slice_whole, Rect.mem_set_unit]
  exact Iff.rfl

/-- Every index of the result array lies in the block of the point numbered by its plane. -/
theorem cover (i : S64x1024x1024.Idx) :
    ∃ t : Fin cfg0.N, (cfg0.win 1).flush t = true ∧ i ∈ ((cfg0.win 1).blk t).view.set := by
  have h0 : (i 0).val < 64 := (i 0).isLt
  have h1 : (i 1).val < 1024 := (i 1).isLt
  have h2 : (i 2).val < 1024 := (i 2).isLt
  let t : Fin cfg0.N := ⟨(i 0).val, by rw [show cfg0.N = 64 from N_0]; exact h0⟩
  obtain ⟨e0, e1, e2, e3, e4, e5⟩ := idx_facts t
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1
              rw [e3]; show (i 0).val * 1 ≤ (i 0).val ∧ (i 0).val < (i 0).val * 1 + 1; omega
  | ⟨1, _⟩ => show win0_1.index t (1 : Fin 3) * 1024 ≤ (i 1).val ∧ (i 1).val < win0_1.index t (1 : Fin 3) * 1024 + 1024
              omega
  | ⟨2, _⟩ => show win0_1.index t (2 : Fin 3) * 1024 ≤ (i 2).val ∧ (i 2).val < win0_1.index t (2 : Fin 3) * 1024 + 1024
              omega

/-- THE RESULT ARRAY after the run is `G` of the argument array. -/
theorem final (c : Dev nD) : (dats m 0 c).arrAt 1 cfg0.N = G (m ((c : Thread nD τ).loc main_arg0)) :=
  (dats m 0 c).arrAt_eq_of_cover 1 (G (V m c main_arg0)) (fun t _ => flushed_eq m c t) cover

/-- The kernel's run, read: the result array at `G` of the argument, the argument unchanged. -/
theorem run : θ_run defs (onTc (τ := τ) (main (F := F))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.PoolHole.KernelSide

end
-- ==== Proof.RefValue.lean ====
/-
  The reference's result. It pads the array by one zero on each side of its last two axes and folds, onto an array
  of zeros, the eight unit-offset [64, 1024, 1024] slices of the padded array other than the centred one, with the
  pointwise maximum. The slice at offsets `(0, di, dj)` read at `(b, i, j)` is the padded array at
  `(b, i + di, j + dj)`: neighbour `(di, dj)` of `(i, j)` in plane `b`, zero off the plane. The padding value is the
  integer 0 converted to a float, which over the extended reals is the number the zero word denotes.
-/
import proofs.«166216_j43971875176514_1_alg».proof.Proof.Gen.ReferenceIdeal.Read
import proofs.«166216_j43971875176514_1_alg».proof.Proof.Taps
import Idealize.ShloMosaic.PureOps.Ideal.Laws

noncomputable section

namespace Cert.PoolHole.RefSide

open Cert.ReferenceIdeal Cert.ReferenceIdeal.Gen Cert.ReferenceIdeal.Read
open Idealize.ShloMosaic Idealize.ShloMosaic.ValueIdx Cert.PoolHole

/-- The padding value is the zero the fold starts from. -/
theorem pad_value (j : S_.Idx) :
    val_main_call0_v0 (F := Ideal) j = Scalar.ofBits (F := Ideal) .f32 0x00000000#32 := by
  show (((0#32 : BitVec 32).toInt : ℝ) : EReal) = Ideal.ofBits .f32 0x00000000#32
  rw [Ideal.ofBits_zero_f32]
  simp

/-- The padded array at `(b, i + di, j + dj)` is neighbour `(di, dj)` of `(i, j)` in plane `b`. -/
theorem tap_ref (x0 : S64x1024x1024.Idx → Ideal .f32) (k : S64x1024x1024.Idx) (k' : S64x1026x1026.Idx) (di dj : Nat)
    (h0 : (k' 0).val = (k 0).val) (h1 : (k' 1).val = (k 1).val + di) (h2 : (k' 2).val = (k 2).val + dj) :
    val_main_v0 (F := Ideal) x0 k'
      = tap (fun p => x0 (ix3 (k 0) (p 0) (p 1))) (Scalar.ofBits (F := Ideal) .f32 0x00000000#32) di dj (k 1) (k 2) := by
  unfold val_main_v0
  rw [pad_tap x0 _ _ _ k' (k 0) (k 1) (k 2) di dj h0 h1 h2, pad_value]

/-- THE REFERENCE'S RESULT is `pool` of the argument array. -/
theorem ref_eq (x0 : S64x1024x1024.Idx → Ideal .f32) :
    val_main_v17 (F := Ideal) x0
      = pool FloatOps.maximumf (Scalar.ofBits (F := Ideal) .f32 0x00000000#32) x0 := by
  funext k
  rw [val_main_v17_apply, val_main_v15_apply, val_main_v13_apply, val_main_v11_apply, val_main_v9_apply,
    val_main_v7_apply, val_main_v5_apply, val_main_v3_apply, val_main_v1_apply, val_main_cst_apply,
    val_main_v2_apply, val_main_v4_apply, val_main_v6_apply, val_main_v8_apply, val_main_v10_apply,
    val_main_v12_apply, val_main_v14_apply, val_main_v16_apply]
  unfold pool pool2
  refine congrArg₂ FloatOps.maximumf (congrArg₂ FloatOps.maximumf (congrArg₂ FloatOps.maximumf (congrArg₂ FloatOps.maximumf
    (congrArg₂ FloatOps.maximumf (congrArg₂ FloatOps.maximumf (congrArg₂ FloatOps.maximumf (congrArg₂ FloatOps.maximumf rfl ?_) ?_) ?_) ?_) ?_) ?_) ?_) ?_
  · exact tap_ref x0 k (idx_main_v2 k) 0 0 rfl rfl rfl
  · exact tap_ref x0 k (idx_main_v4 k) 0 1 rfl rfl (by show 1 + (k 2).val = (k 2).val + 1; omega)
  · exact tap_ref x0 k (idx_main_v6 k) 0 2 rfl rfl (by show 2 + (k 2).val = (k 2).val + 2; omega)
  · exact tap_ref x0 k (idx_main_v8 k) 1 0 rfl (by show 1 + (k 1).val = (k 1).val + 1; omega) rfl
  · exact tap_ref x0 k (idx_main_v10 k) 1 2 rfl (by show 1 + (k 1).val = (k 1).val + 1; omega) (by show 2 + (k 2).val = (k 2).val + 2; omega)
  · exact tap_ref x0 k (idx_main_v12 k) 2 0 rfl (by show 2 + (k 1).val = (k 1).val + 2; omega) rfl
  · exact tap_ref x0 k (idx_main_v14 k) 2 1 rfl (by show 2 + (k 1).val = (k 1).val + 2; omega) (by show 1 + (k 2).val = (k 2).val + 1; omega)
  · exact tap_ref x0 k (idx_main_v16 k) 2 2 rfl (by show 2 + (k 1).val = (k 1).val + 2; omega) (by show 2 + (k 2).val = (k 2).val + 2; omega)

end Cert.PoolHole.RefSide

end
-- ==== Proof.lean ====
/-
  `Cert.Claim` for the 3 × 3 max-pool with a hole at the centre, over x : f32[64, 1024, 1024].

  Both programs compute, at every `(b, i, j)`, the maximum of zero and the eight entries of plane `b` at the
  positions `(i + di - 1, j + dj - 1)`, `(di, dj) ≠ (1, 1)`, an entry off the plane read as zero. The kernel gets
  each neighbour by moving the whole plane one step (a strip of zeros entering at the border) and folds the moved
  planes with the pointwise maximum, one plane per grid point; the reference pads the array with zeros and folds the
  eight offset slices of the padded array. The two folds take the neighbours in the same order, so over the extended
  reals the results are the same term (`pool`): no law of the maximum is used, and the inputs' finiteness is not
  needed.

  The frames of the two kernel programs are the generated ones; the reference's frame is its generated run with the
  result dropped. The idealization rewrote nothing, so `preserves` is `True`.
-/
import proofs.«166216_j43971875176514_1_alg».proof.Defs
import proofs.«166216_j43971875176514_1_alg».proof.Proof.Gen.Kernel
import proofs.«166216_j43971875176514_1_alg».proof.Proof.Gen.Kernel.Skeleton
import proofs.«166216_j43971875176514_1_alg».proof.Proof.Gen.Kernel.Launch
import proofs.«166216_j43971875176514_1_alg».proof.Proof.Gen.Kernel.Points
import proofs.«166216_j43971875176514_1_alg».proof.Proof.Gen.Kernel.Frame
import proofs.«166216_j43971875176514_1_alg».proof.Proof.Gen.KernelIdeal
import proofs.«166216_j43971875176514_1_alg».proof.Proof.Gen.KernelIdeal.Skeleton
import proofs.«166216_j43971875176514_1_alg».proof.Proof.Gen.KernelIdeal.Launch
import proofs.«166216_j43971875176514_1_alg».proof.Proof.Gen.KernelIdeal.Points
import proofs.«166216_j43971875176514_1_alg».proof.Proof.Gen.KernelIdeal.Frame
import proofs.«166216_j43971875176514_1_alg».proof.Proof.Gen.ReferenceIdeal
import proofs.«166216_j43971875176514_1_alg».proof.Proof.Gen.Pre_finite_inputs
import proofs.«166216_j43971875176514_1_alg».proof.Proof.Gen.KernelIdeal.Value
import proofs.«166216_j43971875176514_1_alg».proof.Proof.Gen.ReferenceIdeal.Run
import proofs.«166216_j43971875176514_1_alg».proof.Proof.Gen.ReferenceIdeal.Read
import proofs.«166216_j43971875176514_1_alg».proof.Proof.KernelValue
import proofs.«166216_j43971875176514_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array ends at `pool` of its argument (the blocks put together), the reference's at its
    composed term, which index by index is `pool` of the same argument. -/
theorem algebraic : Cert.algebraic_KernelIdeal_ReferenceIdeal := by
  intro m ρ m' ρ' _ hagree
  refine ⟨fun c => Cert.PoolHole.KernelSide.G (F := Ideal) (m ((c.tc : Thread Cert.KernelIdeal.nD Cert.KernelIdeal.τ).loc Cert.KernelIdeal.main_arg0)),
    Cert.PoolHole.KernelSide.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.PoolHole.RefSide.ref_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
